-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S128x1024 : Shape := ⟨2, ![128, 1024]⟩
abbrev S1024 : Shape := ⟨1, ![1024]⟩
abbrev S1024x128 : Shape := ⟨2, ![1024, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S1024x128 .f32) (main_arg7 : FVec F S128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x128 .f32 := Host.absf main_arg6
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000x128 .f32) (main_arg2 : IVec S600000 32) (main_arg3 : IVec S600000 32) (main_arg4 : FVec F S128x1024 .f32) (main_arg5 : FVec F S1024 .f32) (main_arg6 : FVec F S1024x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x1024 .f32 := Host.absf main_arg4
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S128x1024 : Shape := ⟨2, ![128, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S600000x1 : Shape := ⟨2, ![600000, 1]⟩
abbrev S1x1024 : Shape := ⟨2, ![1, 1024]⟩
abbrev S1x128 : Shape := ⟨2, ![1, 128]⟩
abbrev S2000x128 : Shape := ⟨2, ![2000, 128]⟩
abbrev S2000x1024 : Shape := ⟨2, ![2000, 1024]⟩

abbrev nBuf : Space → Nat
  | .hbm => 25
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S1x1024, .f32⟩
  | .hbm, ⟨23, _⟩ => ⟨S1x128, .f32⟩
  | .hbm, ⟨24, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x1024, .f32⟩
  | .local _ .vmem, ⟨3, _⟩ => ⟨S1x1024, .f32⟩
  | .local _ .vmem, ⟨4, _⟩ => ⟨S1024x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S1024_S1x1024 : S1024.ShapeCasts S1x1024
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x1024_S2000x1024_1_0_0_1_n_n_wf : DotDims.WF S2000x128 S128x1024 S2000x1024 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x1024_S2000x1024_1_0_0_1_n_n : DotDims S2000x128 S128x1024 S2000x1024 where
  lhsContracting := [1]
  rhsContracting := [0]
  lhsNonContracting := [0]
  rhsNonContracting := [1]
  lhsBatch := []
  rhsBatch := []
  wf := dot_S2000x128_S128x1024_S2000x1024_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S128x1024 : Shape := ⟨2, ![128, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S600000x1 : Shape := ⟨2, ![600000, 1]⟩
abbrev S50000x1024 : Shape := ⟨2, ![50000, 1024]⟩
abbrev S1x1024 : Shape := ⟨2, ![1, 1024]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S50000x1024, .f32⟩
  | .hbm, ⟨23, _⟩ => ⟨S1x1024, .f32⟩
  | .hbm, ⟨24, _⟩ => ⟨S50000x1024, .f32⟩
  | .hbm, ⟨25, _⟩ => ⟨S50000x1024, .f32⟩
  | .hbm, ⟨26, _⟩ => ⟨S_, .f32⟩
  | .hbm, ⟨27, _⟩ => ⟨S50000x1024, .f32⟩
  | .hbm, ⟨28, _⟩ => ⟨S50000x1024, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S50000x1024 : S_.BroadcastsInDim S50000x1024 (![] : Fin 0 → Fin S50000x1024.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x1024_S50000x1024_1_0_0_1_n_n_wf : DotDims.WF S50000x128 S128x1024 S50000x1024 [1] [0] [0] [1] [] []
  dot_S50000x1024_S1024x128_S50000x128_1_0_0_1_n_n_wf : DotDims.WF S50000x1024 S1024x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x1024_S50000x1024_1_0_0_1_n_n : DotDims S50000x128 S128x1024 S50000x1024 where
  lhsContracting := [1]
  rhsContracting := [0]
  lhsNonContracting := [0]
  rhsNonContracting := [1]
  lhsBatch := []
  rhsBatch := []
  wf := dot_S50000x128_S128x1024_S50000x1024_1_0_0_1_n_n_wf
def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf

class Facts : Prop extends Facts₀ where

variable [Facts]
-- ==== Proof.Perceptron.lean ====
/-
  The two-layer perceptron with a rectifier, as ONE function of its arrays over the extended reals.
  For node features `h` (one row of 128 numbers per node), weights `W1` (128 × 1024), `W2` (1024 × 128) and biases
  `b1`, `b2`, row `r` of the result holds, at column `c`,
      ∑ k, max (∑ l, h r l · W1 l k + b1 k) 0 · W2 k c + b2 c .
  Nothing here distributes a product over a sum or cancels anything: the two programs are compared term by term, so no
  entry needs to be finite.
-/
import Idealize.ShloMosaic.PureOps.Ideal
import Idealize.ShloMosaic.Lib.ValueIdx

noncomputable section

namespace Cert.EdgeMlp

open Idealize.ShloMosaic Idealize.ShloMosaic.ValueIdx

/-- Hidden unit `k` of node `r`: the rectified affine image of the node's feature row. -/
def hidden (h : FVec Ideal ⟨2, ![50000, 128]⟩ .f32) (W1 : FVec Ideal ⟨2, ![128, 1024]⟩ .f32) (b1 : FVec Ideal ⟨1, ![1024]⟩ .f32)
    (r : Fin 50000) (k : Fin 1024) : EReal :=
  max ((∑ l : Fin 128, h (ix2 r l) * W1 (ix2 l k)) + b1 (ix1 k)) 0

/-- The perceptron's output array: the affine image of each node's hidden row. -/
def perceptron (h : FVec Ideal ⟨2, ![50000, 128]⟩ .f32) (W1 : FVec Ideal ⟨2, ![128, 1024]⟩ .f32) (b1 : FVec Ideal ⟨1, ![1024]⟩ .f32)
    (W2 : FVec Ideal ⟨2, ![1024, 128]⟩ .f32) (b2 : FVec Ideal ⟨1, ![128]⟩ .f32) : FVec Ideal ⟨2, ![50000, 128]⟩ .f32 :=
  fun i => (∑ k : Fin 1024, hidden h W1 b1 (i 0) k * W2 (ix2 k (i 1))) + b2 (ix1 (i 1))

end Cert.EdgeMlp

end
-- ==== Proof.RefPerceptron.lean ====
/-
  The reference's result is the perceptron of its aggregated node features.
  The reference aggregates the edge messages into one feature row per node (a gather, a sum and a scatter-add on the
  host: the stage `val_main_v10`), then applies `relu (h · W1 + b1) · W2 + b2` with two whole-array products. Read at an
  index, each product is a sum over its contracted axis and each bias a broadcast row, so the result at `(r, c)` is
  `∑ k, max (∑ l, h r l · W1 l k + b1 k) 0 · W2 k c + b2 c`.
-/
import proofs.«410000_j33784212750625_3_alg».proof.Proof.Gen.ReferenceIdeal.Read
import proofs.«410000_j33784212750625_3_alg».proof.Proof.Perceptron

noncomputable section

namespace Cert.EdgeMlp

open Cert.ReferenceIdeal Cert.ReferenceIdeal.Read Idealize.ShloMosaic Idealize.ShloMosaic.ValueIdx

/-- The reference's last stage is `perceptron` of the aggregated features and the four parameter arrays. -/
theorem reference_eq (x0 : (⟨S50000x128, .f32⟩ : BufTy).Contents (Elt Ideal)) (x1 : (⟨S600000x128, .f32⟩ : BufTy).Contents (Elt Ideal))
    (x2 x3 : (⟨S600000, .i32⟩ : BufTy).Contents (Elt Ideal)) (x4 : (⟨S128x1024, .f32⟩ : BufTy).Contents (Elt Ideal))
    (x5 : (⟨S1024, .f32⟩ : BufTy).Contents (Elt Ideal)) (x6 : (⟨S1024x128, .f32⟩ : BufTy).Contents (Elt Ideal))
    (x7 : (⟨S128, .f32⟩ : BufTy).Contents (Elt Ideal)) :
    val_main_v19 (F := Ideal) x0 x1 x2 x3 x4 x5 x6 x7
      = perceptron (val_main_v10 (F := Ideal) x0 x1 x2 x3) x4 x5 x6 x7 := by
  funext i
  -- the output: the second product's sum over the hidden axis, plus the second bias's broadcast row
  rw [val_main_v19_apply, val_main_v16_apply, val_main_v18_apply, val_main_v17_apply]
  unfold perceptron hidden
  refine congrArg₂ (· + ·) (Finset.sum_congr rfl fun k _ => congrArg₂ (· * ·) ?_ ?_) ?_
  · -- a hidden unit: the rectifier of the first product's sum over the feature axis plus the first bias's row
    rw [val_main_v15_apply, val_main_v14_apply, val_main_v11_apply, val_main_v13_apply, val_main_v12_apply,
      val_main_call0_v0_apply, val_main_call0_cst_apply]
    -- the composed index functions are the coordinates themselves
    have hrow : ∀ l : Fin 128, lidx_main_v11 (lidx_main_v16 i k) l = ix2 (i 0) l := fun l => funext fun a => by
      match a with
      | ⟨0, _⟩ => rfl
      | ⟨1, _⟩ => rfl
    have hcol : ∀ l : Fin 128, ridx_main_v11 (lidx_main_v16 i k) l = ix2 l k := fun l => funext fun a => by
      match a with
      | ⟨0, _⟩ => rfl
      | ⟨1, _⟩ => rfl
    have hbias : idx_main_v12 (idx_main_v13 (lidx_main_v16 i k)) = ix1 k := funext fun a => by
      match a with
      | ⟨0, _⟩ => rfl
    simp only [hrow, hcol, hbias, Ideal.maximumf_def, Ideal.addf_def, Ideal.ofBits_def, Ideal.ofBits_zero_f32]
    rfl
  · -- the second weight matrix is read at (k, c)
    exact congrArg x6 (funext fun a => by
      match a with
      | ⟨0, _⟩ => rfl
      | ⟨1, _⟩ => rfl)
  · -- the second bias is read at c
    exact congrArg x7 (funext fun a => by
      match a with
      | ⟨0, _⟩ => rfl)

end Cert.EdgeMlp

end
-- ==== Proof.BodyAtIndex.lean ====
/-
  The kernel body's stored value, read at an index.
  On a block of 2000 feature rows the body computes `max (x · W1 + b1) 0 · W2 + b2` with two matrix products into zero
  accumulators; the changes of float format around them are the identity on the extended reals. Read at `(p, q)` the
  value is `∑ k, max (∑ l, x p l · W1 l k + b1 0 k) 0 · W2 k q + b2 0 q`, the biases being one-row matrices.
-/
import proofs.«410000_j33784212750625_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.EdgeMlp

open Cert.KernelIdeal Cert.KernelIdeal.Gen Idealize.ShloMosaic Idealize.ShloMosaic.ValueIdx

/-! ## The first product: a block of feature rows times the first weight matrix -/

theorem lhs_first_0 (i : S2000x1024.Idx) (q : dot_S2000x128_S128x1024_S2000x1024_1_0_0_1_n_n.contr.Idx) :
    (dot_S2000x128_S128x1024_S2000x1024_1_0_0_1_n_n.lhsIdx i q 0).val = (i 0).val := by
  unfold DotDims.lhsIdx
  rw [dif_neg (show ¬(0 : Fin S2000x128.rank) ∈ dot_S2000x128_S128x1024_S2000x1024_1_0_0_1_n_n.lhsBatch by decide), dif_pos (show (0 : Fin S2000x128.rank) ∈ dot_S2000x128_S128x1024_S2000x1024_1_0_0_1_n_n.lhsNonContracting by decide)]
  rfl
theorem lhs_first_1 (i : S2000x1024.Idx) (q : dot_S2000x128_S128x1024_S2000x1024_1_0_0_1_n_n.contr.Idx) :
    (dot_S2000x128_S128x1024_S2000x1024_1_0_0_1_n_n.lhsIdx i q 1).val = (q ⟨0, by decide⟩).val :=
  dot_S2000x128_S128x1024_S2000x1024_1_0_0_1_n_n.lhsIdx_val_of_single rfl i q
theorem rhs_first_0 (i : S2000x1024.Idx) (q : dot_S2000x128_S128x1024_S2000x1024_1_0_0_1_n_n.contr.Idx) :
    (dot_S2000x128_S128x1024_S2000x1024_1_0_0_1_n_n.rhsIdx i q 0).val = (q ⟨0, by decide⟩).val :=
  dot_S2000x128_S128x1024_S2000x1024_1_0_0_1_n_n.rhsIdx_val_of_single rfl i q
theorem rhs_first_1 (i : S2000x1024.Idx) (q : dot_S2000x128_S128x1024_S2000x1024_1_0_0_1_n_n.contr.Idx) :
    (dot_S2000x128_S128x1024_S2000x1024_1_0_0_1_n_n.rhsIdx i q 1).val = (i 1).val := by
  unfold DotDims.rhsIdx
  rw [dif_neg (show ¬(1 : Fin S128x1024.rank) ∈ dot_S2000x128_S128x1024_S2000x1024_1_0_0_1_n_n.rhsBatch by decide), dif_pos (show (1 : Fin S128x1024.rank) ∈ dot_S2000x128_S128x1024_S2000x1024_1_0_0_1_n_n.rhsNonContracting by decide)]
  rfl

/-- The first product into a zero accumulator, at row `p` and hidden unit `k`: the sum over the 128 features. -/
theorem first_product_apply {φ₁ φ₂ : FTy} (a : FVec Ideal S2000x128 φ₁) (b : FVec Ideal S128x1024 φ₂) (p : Fin 2000) (k : Fin 1024) :
    matmul dot_S2000x128_S128x1024_S2000x1024_1_0_0_1_n_n none a b (constant S2000x1024 .f32 0x00000000#32) (ix2 p k)
      = ∑ l : Fin 128, a (ix2 p l) * b (ix2 l k) := by
  simp only [matmul]
  rw [Ideal.matmul_constant_zero_apply, ← Equiv.sum_comp (contrEquiv1 dot_S2000x128_S128x1024_S2000x1024_1_0_0_1_n_n 128 rfl rfl).symm]
  refine Finset.sum_congr rfl fun l _ => ?_
  have hk := contrEquiv1_symm_val dot_S2000x128_S128x1024_S2000x1024_1_0_0_1_n_n 128 rfl rfl l
  have el : dot_S2000x128_S128x1024_S2000x1024_1_0_0_1_n_n.lhsIdx (ix2 p k) ((contrEquiv1 dot_S2000x128_S128x1024_S2000x1024_1_0_0_1_n_n 128 rfl rfl).symm l) = ix2 p l := funext fun a => Fin.ext (by
    match a with
    | ⟨0, _⟩ => exact lhs_first_0 _ _
    | ⟨1, _⟩ => exact (lhs_first_1 _ _).trans hk)
  have er : dot_S2000x128_S128x1024_S2000x1024_1_0_0_1_n_n.rhsIdx (ix2 p k) ((contrEquiv1 dot_S2000x128_S128x1024_S2000x1024_1_0_0_1_n_n 128 rfl rfl).symm l) = ix2 l k := funext fun a => Fin.ext (by
    match a with
    | ⟨0, _⟩ => exact (rhs_first_0 _ _).trans hk
    | ⟨1, _⟩ => exact rhs_first_1 _ _)
  rw [el, er]

/-! ## The second product: the hidden rows times the second weight matrix -/

theorem lhs_second_0 (i : S2000x128.Idx) (q : dot_S2000x1024_S1024x128_S2000x128_1_0_0_1_n_n.contr.Idx) :
    (dot_S2000x1024_S1024x128_S2000x128_1_0_0_1_n_n.lhsIdx i q 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
theorem lhs_second_1 (i : S2000x128.Idx) (q : dot_S2000x1024_S1024x128_S2000x128_1_0_0_1_n_n.contr.Idx) :
    (dot_S2000x1024_S1024x128_S2000x128_1_0_0_1_n_n.lhsIdx i q 1).val = (q ⟨0, by decide⟩).val :=
  dot_S2000x1024_S1024x128_S2000x128_1_0_0_1_n_n.lhsIdx_val_of_single rfl i q
theorem rhs_second_0 (i : S2000x128.Idx) (q : dot_S2000x1024_S1024x128_S2000x128_1_0_0_1_n_n.contr.Idx) :
    (dot_S2000x1024_S1024x128_S2000x128_1_0_0_1_n_n.rhsIdx i q 0).val = (q ⟨0, by decide⟩).val :=
  dot_S2000x1024_S1024x128_S2000x128_1_0_0_1_n_n.rhsIdx_val_of_single rfl i q
theorem rhs_second_1 (i : S2000x128.Idx) (q : dot_S2000x1024_S1024x128_S2000x128_1_0_0_1_n_n.contr.Idx) :
    (dot_S2000x1024_S1024x128_S2000x128_1_0_0_1_n_n.rhsIdx i q 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- The second product into a zero accumulator, at row `p` and output column `q`: the sum over the 1024 hidden units. -/
theorem second_product_apply {φ₁ φ₂ : FTy} (a : FVec Ideal S2000x1024 φ₁) (b : FVec Ideal S1024x128 φ₂) (p : Fin 2000) (q : Fin 128) :
    matmul dot_S2000x1024_S1024x128_S2000x128_1_0_0_1_n_n none a b (constant S2000x128 .f32 0x00000000#32) (ix2 p q)
      = ∑ k : Fin 1024, a (ix2 p k) * b (ix2 k q) := by
  simp only [matmul]
  rw [Ideal.matmul_constant_zero_apply, ← Equiv.sum_comp (contrEquiv1 dot_S2000x1024_S1024x128_S2000x128_1_0_0_1_n_n 1024 rfl rfl).symm]
  refine Finset.sum_congr rfl fun k _ => ?_
  have hk := contrEquiv1_symm_val dot_S2000x1024_S1024x128_S2000x128_1_0_0_1_n_n 1024 rfl rfl k
  have el : dot_S2000x1024_S1024x128_S2000x128_1_0_0_1_n_n.lhsIdx (ix2 p q) ((contrEquiv1 dot_S2000x1024_S1024x128_S2000x128_1_0_0_1_n_n 1024 rfl rfl).symm k) = ix2 p k := funext fun a => Fin.ext (by
    match a with
    | ⟨0, _⟩ => exact lhs_second_0 _ _
    | ⟨1, _⟩ => exact (lhs_second_1 _ _).trans hk)
  have er : dot_S2000x1024_S1024x128_S2000x128_1_0_0_1_n_n.rhsIdx (ix2 p q) ((contrEquiv1 dot_S2000x1024_S1024x128_S2000x128_1_0_0_1_n_n 1024 rfl rfl).symm k) = ix2 k q := funext fun a => Fin.ext (by
    match a with
    | ⟨0, _⟩ => exact (rhs_second_0 _ _).trans hk
    | ⟨1, _⟩ => exact rhs_second_1 _ _)
  rw [el, er]

/-! ## The body's stored value -/

/-- What the body stores, at row `p` of the block and output column `q`. -/
theorem body_apply (x : FVec Ideal S2000x128 .f32) (W1 : FVec Ideal S128x1024 .f32) (b1 : FVec Ideal S1x1024 .f32)
    (W2 : FVec Ideal S1024x128 .f32) (b2 : FVec Ideal S1x128 .f32) (p : Fin 2000) (q : Fin 128) :
    k0_pay1 (F := Ideal) x W1 b1 W2 b2 (ix2 p q)
      = (∑ k : Fin 1024, max ((∑ l : Fin 128, x (ix2 p l) * W1 (ix2 l k)) + b1 (ix2 (0 : Fin 1) k)) 0 * W2 (ix2 k q))
        + b2 (ix2 (0 : Fin 1) q) := by
  unfold k0_pay1
  -- the reshapes of a block to its own shape are the identity
  simp only [shapeCast_self]
  -- the output: the second product's sum plus the second bias's one row
  rw [addf_apply, second_product_apply, broadcastTo_1b_ab_apply]
  refine congrArg₂ (· + ·) (Finset.sum_congr rfl fun k _ => congrArg₂ (· * ·) ?_ rfl) rfl
  -- a hidden unit: the rectifier of the first product's sum plus the first bias's one row
  rw [truncf_apply, maximumf_apply, addf_apply, first_product_apply, broadcastTo_1b_ab_apply, broadcast_apply]
  -- a change of float format is the identity on the extended reals, and the zero word denotes 0
  simp only [truncf_apply, Ideal.ofBits_def, Ideal.ofBits_zero_f32]

end Cert.EdgeMlp

end
-- ==== Proof.RegionValue.lean ====
/-
  What the pallas_call leaves in its output array, as one function of the arrays it finds on entry.
  The grid has 25 points; point `t` loads rows `2000 t … 2000 t + 1999` of the feature array and the four parameter
  arrays whole, and writes back rows `2000 t … 2000 t + 1999` of the output. So row `r` of the output is written by point
  `r / 2000`, from feature row `r` alone, and the 25 blocks tile the 50000 rows: the output array ends holding the
  perceptron's value at every index.
-/
import proofs.«410000_j33784212750625_3_alg».proof.Proof.Gen.KernelIdeal.Value
import proofs.«410000_j33784212750625_3_alg».proof.Proof.BodyAtIndex

noncomputable section

namespace Cert.EdgeMlp

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The perceptron over the arrays as the region finds them: the biases are one-row matrices there. -/
def regionMlp (h : FVec Ideal S50000x128 .f32) (W1 : FVec Ideal S128x1024 .f32) (b1 : FVec Ideal S1x1024 .f32)
    (W2 : FVec Ideal S1024x128 .f32) (b2 : FVec Ideal S1x128 .f32) : FVec Ideal S50000x128 .f32 :=
  fun i => (∑ k : Fin 1024, max ((∑ l : Fin 128, h (ix2 (i 0) l) * W1 (ix2 l k)) + b1 (ix2 (0 : Fin 1) k)) 0 * W2 (ix2 k (i 1)))
    + b2 (ix2 (0 : Fin 1) (i 1))

theorem origin_zero : (![0, 0] : Fin 2 → Nat) = fun _ => 0 := funext fun a => by fin_cases a <;> rfl

/-- The printed index maps over the grid: the feature window and the output window sit at block row `t`, block column
    0; the four parameter windows stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 := t.isLt.trans_eq N_0

/-- Row `p` of point `t`'s block is row `2000 t + p` of the array. -/
def row (t : Fin cfg0.N) (p : Fin 2000) : Fin 50000 :=
  ⟨t.val * 2000 + p.val, by have := point_lt t; have := p.isLt; omega⟩

/-! ## The blocks the body loads -/

abbrev featBlock (c : Dev nD) (t : Fin cfg0.N) : FVec Ideal S2000x128 .f32 := iblk m c 0 t
abbrev w1Block (c : Dev nD) (t : Fin cfg0.N) : FVec Ideal S128x1024 .f32 := iblk m c 1 t
abbrev b1Block (c : Dev nD) (t : Fin cfg0.N) : FVec Ideal S1x1024 .f32 := iblk m c 2 t
abbrev w2Block (c : Dev nD) (t : Fin cfg0.N) : FVec Ideal S1024x128 .f32 := iblk m c 3 t
abbrev b2Block (c : Dev nD) (t : Fin cfg0.N) : FVec Ideal S1x128 .f32 := iblk m c 4 t

/-- The feature block at point `t` holds rows `2000 t …` of the aggregated features. -/
theorem featBlock_apply (c : Dev nD) (t : Fin cfg0.N) (p : Fin 2000) (l : Fin 128) :
    featBlock m c t (ix2 p l) = V m c main_v10 (ix2 (row t p) l) := by
  show V m c main_v10 (((cfg0.win 0).blk t).view.emb (ix2 p l)) = V m c main_v10 (ix2 (row t p) l)
  obtain ⟨e00, e01, -⟩ := index_maps t
  refine congrArg (V m c main_v10) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * l.val = l.val; omega

/-- The first weight matrix is loaded whole at every point. -/
theorem w1Block_apply (c : Dev nD) (t : Fin cfg0.N) (l : Fin 128) (k : Fin 1024) :
    w1Block m c t (ix2 l k) = V m c main_arg4 (ix2 l k) := by
  show V m c main_arg4 (((cfg0.win 1).blk t).view.emb (ix2 l k)) = V m c main_arg4 (ix2 l k)
  obtain ⟨-, -, e10, e11, -⟩ := index_maps t
  refine congrArg (V m c main_arg4) (funext fun a => Fin.ext ?_)
  match a with
  | ⟨0, _⟩ => show win0_1.index t (0 : Fin 2) * 128 + 1 * l.val = l.val; omega
  | ⟨1, _⟩ => show win0_1.index t (1 : Fin 2) * 1024 + 1 * k.val = k.val; omega

/-- The first bias row is loaded whole at every point. -/
theorem b1Block_apply (c : Dev nD) (t : Fin cfg0.N) (k : Fin 1024) :
    b1Block m c t (ix2 (0 : Fin 1) k) = V m c main_v11 (ix2 (0 : Fin 1) k) := by
  show V m c main_v11 (((cfg0.win 2).blk t).view.emb (ix2 (0 : Fin 1) k)) = V m c main_v11 (ix2 (0 : Fin 1) k)
  obtain ⟨-, -, -, -, e20, e21, -⟩ := index_maps t
  refine congrArg (V m c main_v11) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

/-- The second weight matrix is loaded whole at every point. -/
theorem w2Block_apply (c : Dev nD) (t : Fin cfg0.N) (k : Fin 1024) (q : Fin 128) :
    w2Block m c t (ix2 k q) = V m c main_arg6 (ix2 k q) := by
  show V m c main_arg6 (((cfg0.win 3).blk t).view.emb (ix2 k q)) = V m c main_arg6 (ix2 k q)
  obtain ⟨-, -, -, -, -, -, e30, e31, -⟩ := index_maps t
  refine congrArg (V m c main_arg6) (funext fun a => Fin.ext ?_)
  match a with
  | ⟨0, _⟩ => show win0_3.index t (0 : Fin 2) * 1024 + 1 * k.val = k.val; omega
  | ⟨1, _⟩ => show win0_3.index t (1 : Fin 2) * 128 + 1 * q.val = q.val; omega

/-- The second bias row is loaded whole at every point. -/
theorem b2Block_apply (c : Dev nD) (t : Fin cfg0.N) (q : Fin 128) :
    b2Block m c t (ix2 (0 : Fin 1) q) = V m c main_v12 (ix2 (0 : Fin 1) q) := by
  show V m c main_v12 (((cfg0.win 4).blk t).view.emb (ix2 (0 : Fin 1) q)) = V m c main_v12 (ix2 (0 : Fin 1) q)
  obtain ⟨-, -, -, -, -, -, -, -, e40, e41, -⟩ := index_maps t
  refine congrArg (V m c main_v12) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry `(p, q)` of point `t`'s output block is entry `(2000 t + p, q)` of the output array. -/
theorem outBlock_emb (t : Fin cfg0.N) (p : Fin 2000) (q : Fin 128) :
    ((cfg0.win 5).blk t).view.emb (ix2 p q) = ix2 (row t p) q := by
  obtain ⟨-, -, -, -, -, -, -, -, -, -, e50, e51⟩ := index_maps t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

/-! ## What a point writes back, and the whole array -/

/-- What point `t` writes back is block `t` of the perceptron over the region's arrays. -/
theorem flushed_eq (c : Dev nD) (t : Fin cfg0.N) :
    (dats m 0 c).flushed 5 t = ((cfg0.win 5).blk t).view.read (Elt Ideal)
      (regionMlp (V m c main_v10) (V m c main_arg4) (V m c main_v11) (V m c main_arg6) (V m c main_v12)) := by
  rw [Cert.KernelIdeal.Value.flushed5]
  unfold out0_5
  rw [View.canon_unit_zero origin_zero]
  simp only [View.ld_unit_zero (S := S2000x128) origin_zero, View.ld_unit_zero (S := S128x1024) origin_zero,
    View.ld_unit_zero (S := S1x1024) origin_zero, View.ld_unit_zero (S := S1024x128) origin_zero,
    View.ld_unit_zero (S := S1x128) origin_zero]
  funext j
  obtain ⟨p, q, rfl⟩ : ∃ (p : Fin 2000) (q : Fin 128), j = ix2 p q := ⟨j 0, j 1, eq_ix2 j⟩
  show k0_pay1 (F := Ideal) (featBlock m c t) (w1Block m c t) (b1Block m c t) (w2Block m c t) (b2Block m c t) (ix2 p q)
    = regionMlp (V m c main_v10) (V m c main_arg4) (V m c main_v11) (V m c main_arg6) (V m c main_v12)
        (((cfg0.win 5).blk t).view.emb (ix2 p q))
  rw [outBlock_emb]
  refine (body_apply (featBlock m c t) (w1Block m c t) (b1Block m c t) (w2Block m c t) (b2Block m c t) p q).trans ?_
  simp only [featBlock_apply, w1Block_apply, b1Block_apply, w2Block_apply, b2Block_apply]
  rfl

/-- An index is in point `t`'s output block iff each coordinate is in the block's range on its axis. -/
theorem mem_outBlock (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v13).slice (win0_5.rect t)).set ↔ _
  rw [View.set_slice_whole, Rect.mem_set_unit]
  exact Iff.rfl

/-- Every index of the output array is in some point's block: row `r` in point `r / 2000`'s. -/
theorem outBlocks_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, -, -, -, e50, e51⟩ := index_maps t
  have ht : t.val = (i 0).val / 2000 := rfl
  refine ⟨t, flush0_5 t, ?_⟩
  rw [mem_outBlock]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the region: the perceptron over the region's arrays, at every index. -/
theorem outArray_eq (c : Dev nD) :
    (dats m 0 c).arrAt 5 cfg0.N
      = regionMlp (V m c main_v10) (V m c main_arg4) (V m c main_v11) (V m c main_arg6) (V m c main_v12) :=
  (dats m 0 c).arrAt_eq_of_cover 5 _ (fun t _ => flushed_eq m c t) outBlocks_cover

end Cert.EdgeMlp

end
-- ==== Proof.RegionArrays.lean ====
/-
  What the pallas_call finds in its operand arrays.
  Before the call the program aggregates the edge messages on the host: it wraps negative source ids by the node
  count, gathers each edge's source row, adds the edge's own feature row, and scatter-adds the sums into a zero array at
  the destination ids; and it reshapes the two bias vectors to one-row matrices. The two weight matrices are the
  arguments themselves. The reference aggregates with the same operations on the same arguments, so its aggregated
  features are the same term.
-/
import proofs.«410000_j33784212750625_3_alg».proof.Proof.Gen.KernelIdeal.Frame
import proofs.«410000_j33784212750625_3_alg».proof.Proof.Gen.ReferenceIdeal.Read
import proofs.«410000_j33784212750625_3_alg».proof.Proof.Perceptron
import proofs.«410000_j33784212750625_3_alg».proof.Proof.RegionValue
import Idealize.ShloMosaic.Lib.StableHlo.Run
import Idealize.ShloMosaic.Lib.ValueLayout

noncomputable section

namespace Cert.EdgeMlp

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated node features: for every edge the source node's row (a negative id wrapped by the node count) plus the
    edge's row, summed into the destination node's row of a zero array. -/
def aggregated (feat : (⟨S50000x128, .f32⟩ : BufTy).Contents (Elt Ideal)) (edgeFeat : (⟨S600000x128, .f32⟩ : BufTy).Contents (Elt Ideal))
    (src dst : (⟨S600000, .i32⟩ : BufTy).Contents (Elt Ideal)) : (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (addf (Host.gather gather_S50000x128_S600000x1_S600000x128_1_0_n_n_0_1_1128 feat
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src))) edgeFeat)

/-- The region's first operand holds the aggregated features of the arguments. -/
theorem features_eq (c : Dev nD) :
    (V m c main_v10 : (⟨S50000x128, .f32⟩ : BufTy).Contents (Elt Ideal))
      = aggregated (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

/-- The region's third operand holds the first bias vector as a one-row matrix. -/
theorem bias1_eq (c : Dev nD) :
    (V m c main_v11 : (⟨S1x1024, .f32⟩ : BufTy).Contents (Elt Ideal))
      = shapeCast S1x1024 (m ((c : Thread nD τ).loc main_arg5)) shapeCasts_S1024_S1x1024 := by
  dsimp only [Gen.V, Gen.hostOps0]
  after_results
  rfl

/-- The region's fifth operand holds the second bias vector as a one-row matrix. -/
theorem bias2_eq (c : Dev nD) :
    (V m c main_v12 : (⟨S1x128, .f32⟩ : BufTy).Contents (Elt Ideal))
      = shapeCast S1x128 (m ((c : Thread nD τ).loc main_arg7)) shapeCasts_S128_S1x128 := by
  dsimp only [Gen.V, Gen.hostOps0]
  after_results
  rfl

/-- Over one-row reshapes of the bias vectors, the region's perceptron is the perceptron of the vectors. -/
theorem regionMlp_reshaped (h : FVec Ideal S50000x128 .f32) (W1 : FVec Ideal S128x1024 .f32) (b1 : FVec Ideal S1024 .f32)
    (W2 : FVec Ideal S1024x128 .f32) (b2 : FVec Ideal S128 .f32) :
    regionMlp h W1 (shapeCast S1x1024 b1 shapeCasts_S1024_S1x1024) W2 (shapeCast S1x128 b2 shapeCasts_S128_S1x128)
      = perceptron h W1 b1 W2 b2 := by
  funext i
  unfold regionMlp perceptron hidden
  -- entry (0, k) of a vector reshaped to one row is entry k of the vector
  simp only [shapeCast_a_1a_apply]
  exact congrArg₂ (· + ·) rfl (shapeCast_a_1a_apply b2 shapeCasts_S128_S1x128 (0 : Fin 1) (i 1))

/-- The aggregated features of the reference are the same term: the two programs aggregate with the same host operations. -/
theorem aggregated_eq_reference (feat : (⟨S50000x128, .f32⟩ : BufTy).Contents (Elt Ideal)) (edgeFeat : (⟨S600000x128, .f32⟩ : BufTy).Contents (Elt Ideal))
    (src dst : (⟨S600000, .i32⟩ : BufTy).Contents (Elt Ideal)) :
    Cert.ReferenceIdeal.Read.val_main_v10 (F := Ideal) feat edgeFeat src dst = aggregated feat edgeFeat src dst := rfl

/-- The output array after the region: the perceptron of the aggregated features and the parameter arguments. -/
theorem outArray_args (c : Dev nD) :
    (dats m 0 c).arrAt 5 cfg0.N
      = perceptron (aggregated (m ((c : Thread nD τ).loc main_arg0)) (m ((c : Thread nD τ).loc main_arg1))
            (m ((c : Thread nD τ).loc main_arg2)) (m ((c : Thread nD τ).loc main_arg3)))
          (m ((c : Thread nD τ).loc main_arg4)) (m ((c : Thread nD τ).loc main_arg5))
          (m ((c : Thread nD τ).loc main_arg6)) (m ((c : Thread nD τ).loc main_arg7)) := by
  rw [outArray_eq, features_eq, bias1_eq, bias2_eq, V_main_arg4, V_main_arg6]
  exact regionMlp_reshaped _ _ _ _ _

end Cert.EdgeMlp

end
-- ==== Proof.lean ====
/-
  A graph layer: edge messages summed into their destination nodes, then a two-layer perceptron on every node.
  Both programs first aggregate on the host: each edge's message is its source node's feature row plus the edge's own
  row, and a node's aggregated row is the sum of the messages of the edges that point at it. The kernel then runs the
  perceptron `max (h · W1 + b1) 0 · W2 + b2` on blocks of 2000 nodes, with its two matrix products taken in a narrower
  float format; the reference runs it on all 50000 nodes at once. On the extended reals a change of float format is the
  identity and a matrix product is the plain sum over the contracted axis, so every output entry is
      ∑ k, max (∑ l, h r l · W1 l k + b1 k) 0 · W2 k c + b2 c
  on both sides, term by term, over the same aggregated `h`. No algebraic law is used beyond reading the sums at an
  index, so the inputs' finiteness is never opened.
  The kernel's frames and the reference's run are the generated ones; the kernel's value is read off its run block by
  block (RegionValue, RegionArrays) and the reference's off its stages (RefPerceptron).
-/
import proofs.«410000_j33784212750625_3_alg».proof.Defs
import proofs.«410000_j33784212750625_3_alg».proof.Proof.Gen.Kernel
import proofs.«410000_j33784212750625_3_alg».proof.Proof.Gen.Kernel.Skeleton
import proofs.«410000_j33784212750625_3_alg».proof.Proof.Gen.Kernel.Launch
import proofs.«410000_j33784212750625_3_alg».proof.Proof.Gen.Kernel.Points
import proofs.«410000_j33784212750625_3_alg».proof.Proof.Gen.Kernel.Frame
import proofs.«410000_j33784212750625_3_alg».proof.Proof.Gen.KernelIdeal
import proofs.«410000_j33784212750625_3_alg».proof.Proof.Gen.KernelIdeal.Skeleton
import proofs.«410000_j33784212750625_3_alg».proof.Proof.Gen.KernelIdeal.Launch
import proofs.«410000_j33784212750625_3_alg».proof.Proof.Gen.KernelIdeal.Points
import proofs.«410000_j33784212750625_3_alg».proof.Proof.Gen.KernelIdeal.Frame
import proofs.«410000_j33784212750625_3_alg».proof.Proof.Gen.ReferenceIdeal
import proofs.«410000_j33784212750625_3_alg».proof.Proof.Gen.Pre_finite_inputs
import proofs.«410000_j33784212750625_3_alg».proof.Proof.Gen.KernelIdeal.Value
import proofs.«410000_j33784212750625_3_alg».proof.Proof.Gen.ReferenceIdeal.Run
import proofs.«410000_j33784212750625_3_alg».proof.Proof.Gen.ReferenceIdeal.Read
import proofs.«410000_j33784212750625_3_alg».proof.Proof.RefPerceptron
import proofs.«410000_j33784212750625_3_alg».proof.Proof.RegionArrays
import Idealize.ShloMosaic.Adequacy
import Idealize.ShloMosaic.Init

noncomputable section

namespace Cert.Proof

open Idealize.ShloMosaic Idealize.ShloMosaic.TcCoe Idealize.SL.Sem Cert.EdgeMlp

/-- The word-level kernel terminates without a fault and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference is a straight line of host operations: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the perceptron of the aggregated features in their result array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => perceptron
      (aggregated (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel: its run names the output array, which the blocks fill with the perceptron's values
    exact (θ_run Cert.KernelIdeal.defs _ _).mono (fun r h c => ⟨(h c).1.trans (outArray_args m c), (h c).2⟩)
      (Cert.KernelIdeal.Value.run_blocks (F := Ideal) m ρ)
  · -- the reference: its run's term is its last stage, which is the perceptron of the same aggregated features
    refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [h0, h1, h2, h3, h4, h5, h6, h7]
    exact (Cert.ReferenceIdeal.Read.val_main_v19_eq _ _ _ _ _ _ _ _).trans
      ((reference_eq _ _ _ _ _ _ _ _).trans (by rw [aggregated_eq_reference]))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
